-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x1024 .f32) (main_arg2 : FVec F S1024 .f32) (main_arg3 : FVec F S4096x1024 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S8192x4096 : Shape := ⟨2, ![8192, 4096]⟩
abbrev S1024x4096 : Shape := ⟨2, ![1024, 4096]⟩
abbrev S1x1024 : Shape := ⟨2, ![1, 1024]⟩
abbrev S1x4096 : Shape := ⟨2, ![1, 4096]⟩
abbrev S256x4096 : Shape := ⟨2, ![256, 4096]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S8192x4096, .f32⟩
  | .hbm, ⟨6, _⟩ => ⟨S1024x4096, .f32⟩
  | .hbm, ⟨7, _⟩ => ⟨S4096x1024, .bf16⟩
  | .hbm, ⟨8, _⟩ => ⟨S1024x4096, .bf16⟩
  | .hbm, ⟨9, _⟩ => ⟨S1x1024, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x4096_S8192x4096 : S4x2048x4096.ShapeCasts S8192x4096
  transposes_S4096x1024_S1024x4096_1_0 : S4096x1024.Transposes [1, 0] S1024x4096
  bitsLt_bf16_f32 : FTy.bits .bf16 < FTy.bits .f32
  shapeCasts_S1024_S1x1024 : S1024.ShapeCasts S1x1024
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S1x1024 : Shape := ⟨2, ![1, 1024]⟩
abbrev S1024x4096 : Shape := ⟨2, ![1024, 4096]⟩
abbrev S4096x4096 : Shape := ⟨2, ![4096, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x1024_S1024x4096_S4096x4096_1_0_0_1_n_n_wf : DotDims.WF S4096x1024 S1024x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LowRankLaw.lean ====
/-
  The law that joins the two arrangements of a low-rank linear layer.

  Fix one row `x` of the input (entries `x o`), the factor `V` (entries `V o k`), the singular values `S` (entries `S k`)
  and one row `U` of the other factor (entries `U k`). Projecting the row down to the small rank first, scaling, and
  projecting back up,
      ∑ k, ((∑ o, x o · V o k) · S k) · U k,
  is the row against the materialized product matrix,
      ∑ o, x o · ∑ k, (U k · S k) · V o k :
  both are the double sum of x o · V o k · S k · U k. The step from either side to the double sum moves a factor across a
  sum, which on the extended reals is only sound when no entry is infinite; so the law is stated for entries that are real
  numbers, and is proved in the reals.
-/
import Idealize.ShloMosaic.PureOps.Ideal.Laws

noncomputable section

open scoped BigOperators

namespace Cert.LowRank

/-- Reading real numbers as extended reals commutes with a finite sum. -/
theorem coe_sum {ι : Type} (s : Finset ι) (f : ι → ℝ) :
    ((Finset.sum s f : ℝ) : EReal) = Finset.sum s fun i => (f i : EReal) := by
  classical
  refine Finset.induction_on s ?_ ?_
  · simp
  · intro a s ha ih
    rw [Finset.sum_insert ha, Finset.sum_insert ha, EReal.coe_add, ih]

/-- Down-project, scale, up-project equals the row against the product matrix, for real entries. -/
theorem two_arrangements {ω κ : Type} [Fintype ω] [Fintype κ]
    (x : ω → EReal) (V : ω → κ → EReal) (S U : κ → EReal)
    (hx : ∀ o, ∃ r : ℝ, x o = (r : EReal)) (hV : ∀ o k, ∃ r : ℝ, V o k = (r : EReal))
    (hS : ∀ k, ∃ r : ℝ, S k = (r : EReal)) (hU : ∀ k, ∃ r : ℝ, U k = (r : EReal)) :
    ∑ k, ((∑ o, x o * V o k) * S k) * U k = ∑ o, x o * ∑ k, (U k * S k) * V o k := by
  choose xr hxr using hx
  choose Vr hVr using hV
  choose Sr hSr using hS
  choose Ur hUr using hU
  -- each side is the reading of a real number
  have down : ∀ k, (∑ o, x o * V o k) = ((∑ o, xr o * Vr o k : ℝ) : EReal) := fun k => by
    rw [coe_sum]
    exact Finset.sum_congr rfl fun o _ => by rw [hxr o, hVr o k, EReal.coe_mul]
  have lhs : (∑ k, ((∑ o, x o * V o k) * S k) * U k)
      = ((∑ k, ((∑ o, xr o * Vr o k) * Sr k) * Ur k : ℝ) : EReal) := by
    rw [coe_sum]
    refine Finset.sum_congr rfl fun k _ => ?_
    rw [down k, hSr k, hUr k, EReal.coe_mul, EReal.coe_mul]
  have mat : ∀ o, (∑ k, (U k * S k) * V o k) = ((∑ k, (Ur k * Sr k) * Vr o k : ℝ) : EReal) := fun o => by
    rw [coe_sum]
    exact Finset.sum_congr rfl fun k _ => by rw [hUr k, hSr k, hVr o k, EReal.coe_mul, EReal.coe_mul]
  have rhs : (∑ o, x o * ∑ k, (U k * S k) * V o k)
      = ((∑ o, xr o * ∑ k, (Ur k * Sr k) * Vr o k : ℝ) : EReal) := by
    rw [coe_sum]
    refine Finset.sum_congr rfl fun o _ => ?_
    rw [mat o, hxr o, EReal.coe_mul]
  rw [lhs, rhs]
  congr 1
  -- in the reals: both sides are the double sum, taken in the two orders
  simp only [Finset.sum_mul, Finset.mul_sum]
  rw [Finset.sum_comm]
  exact Finset.sum_congr rfl fun o _ => Finset.sum_congr rfl fun k _ => by ring

end Cert.LowRank

end
-- ==== Proof.RefValue.lean ====
/-
  The reference's result, read at one entry.

  The reference scales the columns of U by the singular values, multiplies by the transposed V to get the full matrix
  M (i, o) = ∑ k, (U (i, k) · S (k)) · V (o, k), contracts the last axis of x against M's second axis, and adds the bias
  along the last axis. So its entry (b, t, i) is
      (∑ o, x (b, t, o) · ∑ k, (U (i, k) · S (k)) · V (o, k)) + bias (i).
  Each step below is one operation of the reference read at an index; the index each one reads its operand at is
  identified with the coordinates first.
-/
import proofs.«151067_j88914412962285_1_alg».proof.Proof.Gen.ReferenceIdeal.Run
import proofs.«151067_j88914412962285_1_alg».proof.Proof.Gen.ReferenceIdeal.Read
import Idealize.ShloMosaic.Lib.ValueIdx

noncomputable section

open scoped BigOperators
open Idealize.ShloMosaic Idealize.ShloMosaic.ValueIdx

namespace Cert.LowRank.Ref

open Cert.ReferenceIdeal Cert.ReferenceIdeal.Read

/-! ## Where each operation reads its operands -/

/-- The last contraction reads x at the result's (b, t) and the contraction coordinate. -/
theorem x_at (b : Fin 4) (t : Fin 2048) (i o : Fin 4096) : lidx_main_v5 (ix3 b t i) o = ix3 b t o :=
  funext fun a => Fin.ext (by match a with | ⟨0, _⟩ => rfl | ⟨1, _⟩ => rfl | ⟨2, _⟩ => rfl)

/-- It reads the product matrix at the result's last coordinate and the contraction coordinate. -/
theorem mat_at (b : Fin 4) (t : Fin 2048) (i o : Fin 4096) : ridx_main_v5 (ix3 b t i) o = ix2 i o :=
  funext fun a => Fin.ext (by match a with | ⟨0, _⟩ => rfl | ⟨1, _⟩ => rfl)

/-- The product matrix's entry (i, o) reads the scaled U at (i, k). -/
theorem scaled_at (i o : Fin 4096) (k : Fin 1024) : lidx_main_v4 (ix2 i o) k = ix2 i k :=
  funext fun a => Fin.ext (by match a with | ⟨0, _⟩ => rfl | ⟨1, _⟩ => rfl)

/-- It reads the transposed V at (k, o). -/
theorem vT_at (i o : Fin 4096) (k : Fin 1024) : ridx_main_v4 (ix2 i o) k = ix2 k o :=
  funext fun a => Fin.ext (by match a with | ⟨0, _⟩ => rfl | ⟨1, _⟩ => rfl)

/-- The transposed V at (k, o) is V at (o, k). -/
theorem v_at (o : Fin 4096) (k : Fin 1024) : idx_main_v3 (ix2 k o) = ix2 o k :=
  funext fun a => Fin.ext (by match a with | ⟨0, _⟩ => rfl | ⟨1, _⟩ => rfl)

/-- The singular values spread down the rows: entry (i, k) reads the one row at (0, k). -/
theorem s_row_at (i : Fin 4096) (k : Fin 1024) : idx_main_v1 (ix2 i k) = ix2 (0 : Fin 1) k :=
  funext fun a => Fin.ext (by match a with | ⟨0, _⟩ => rfl | ⟨1, _⟩ => rfl)

/-- The one row at (0, k) reads the vector at k. -/
theorem s_at (k : Fin 1024) : idx_main_v0 (ix2 (0 : Fin 1) k) = ix1 k :=
  funext fun a => Fin.ext (by match a with | ⟨0, _⟩ => rfl)

/-- The bias spread over (b, t): entry (b, t, i) reads the one slab at (0, 0, i). -/
theorem bias_slab_at (b : Fin 4) (t : Fin 2048) (i : Fin 4096) : idx_main_v7 (ix3 b t i) = ix3 (0 : Fin 1) (0 : Fin 1) i :=
  funext fun a => Fin.ext (by match a with | ⟨0, _⟩ => rfl | ⟨1, _⟩ => rfl | ⟨2, _⟩ => rfl)

/-- The one slab at (0, 0, i) reads the vector at i. -/
theorem bias_at (i : Fin 4096) : idx_main_v6 (ix3 (0 : Fin 1) (0 : Fin 1) i) = ix1 i :=
  funext fun a => Fin.ext (by match a with | ⟨0, _⟩ => rfl)

/-! ## The entry -/

/-- The reference's entry (b, t, i): x's row (b, t) against row i of the product matrix, plus bias (i). -/
theorem entry (x : (⟨S4x2048x4096, .f32⟩ : BufTy).Contents (Elt Ideal)) (Um : (⟨S4096x1024, .f32⟩ : BufTy).Contents (Elt Ideal))
    (Sv : (⟨S1024, .f32⟩ : BufTy).Contents (Elt Ideal)) (Vm : (⟨S4096x1024, .f32⟩ : BufTy).Contents (Elt Ideal))
    (bv : (⟨S4096, .f32⟩ : BufTy).Contents (Elt Ideal)) (b : Fin 4) (t : Fin 2048) (i : Fin 4096) :
    val_main_v8 (F := Ideal) x Um Sv Vm bv (ix3 b t i)
      = (∑ o : Fin 4096, x (ix3 b t o) * ∑ k : Fin 1024, (Um (ix2 i k) * Sv (ix1 k)) * Vm (ix2 o k)) + bv (ix1 i) := by
  rw [val_main_v8_apply, val_main_v5_apply, val_main_v7_apply, val_main_v6_apply, bias_slab_at, bias_at]
  simp only [x_at, mat_at, val_main_v4_apply, scaled_at, vT_at, val_main_v2_apply, val_main_v1_apply, val_main_v0_apply,
    val_main_v3_apply, v_at, s_row_at, s_at, Ideal.addf_def, Ideal.mulf_def]

end Cert.LowRank.Ref

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.BodyValue.lean ====
/-
  What the kernel body stores, read at one entry of its [256, 4096] block.

  From a block of 256 rows of x (all 4096 columns), the whole of V ([4096, 1024]), the singular values as one row
  ([1, 1024]), the whole transposed U ([1024, 4096]) and the bias as one row ([1, 4096]), the body projects the rows down
  to rank 1024, scales column k by S (k), projects back up and adds the bias. Its entry (p, q) is therefore
      (∑ k, ((∑ o, x (p, o) · V (o, k)) · S (0, k)) · Uᵀ (k, q)) + bias (0, q).
  The changes of float format in the body are the identity at the ideal values, and the casts to the same shape are the
  identity; both matrix products are plain ones into the zero matrix, read as sums.
-/
import proofs.«151067_j88914412962285_1_alg».proof.Proof.Gen.KernelIdeal.Skeleton
import proofs.«151067_j88914412962285_1_alg».proof.Proof.LibPlainMatmul
import Idealize.ShloMosaic.Lib.ValueIdx
import Idealize.ShloMosaic.Lib.Pipeline.Value

noncomputable section

open scoped BigOperators
open Idealize.ShloMosaic Idealize.ShloMosaic.ValueIdx

namespace Cert.LowRank.Body

open Cert.KernelIdeal Cert.KernelIdeal.Gen

/-- The down-projection: entry (p, k) of the first product is row p of the block against column k of V. -/
theorem down_entry (xb : FVec Ideal S256x4096 .f32) (vm : FVec Ideal S4096x1024 .bf16) (p : Fin 256) (k : Fin 1024) :
    FloatOps.matmul dot_S256x4096_S4096x1024_S256x1024_1_0_0_1_n_n none
        (truncf (F := Ideal) .bf16 xb bitsLt_bf16_f32) vm (constant (F := Ideal) S256x1024 .f32 0x00000000#32) (ix2 p k)
      = ∑ o : Fin 4096, xb (ix2 p o) * vm (ix2 o k) :=
  Cert.Lib.PlainMatmul.apply dot_S256x4096_S4096x1024_S256x1024_1_0_0_1_n_n rfl rfl rfl rfl rfl rfl none _ _ p k

/-- The stored value at entry (p, q). -/
theorem stored_entry (xb : Vec Ideal S256x4096 .f32) (vm : Vec Ideal S4096x1024 .bf16) (sr : Vec Ideal S1x1024 .f32)
    (ut : Vec Ideal S1024x4096 .bf16) (br : Vec Ideal S1x4096 .f32) (p : Fin 256) (q : Fin 4096) :
    k0_pay1 (F := Ideal) xb vm sr ut br (ix2 p q)
      = (∑ k : Fin 1024, ((∑ o : Fin 4096, xb (ix2 p o) * vm (ix2 o k)) * sr (ix2 (0 : Fin 1) k)) * ut (ix2 k q))
        + br (ix2 (0 : Fin 1) q) := by
  unfold k0_pay1
  simp only [matmul, shapeCast_self]
  rw [addf_apply, Cert.Lib.PlainMatmul.rowSpread_apply,
    Cert.Lib.PlainMatmul.apply dot_S256x1024_S1024x4096_S256x4096_1_0_0_1_n_n rfl rfl rfl rfl rfl rfl]
  refine congrArg (· + br (ix2 (0 : Fin 1) q)) (Finset.sum_congr rfl fun k _ => ?_)
  rw [truncf_apply, mulf_apply, down_entry, Cert.Lib.PlainMatmul.rowSpread_apply]

end Cert.LowRank.Body

end
-- ==== Proof.KernelValue.lean ====
/-
  The kernel's result array, as one function of the arguments.

  Before the region the host lays x out as 8192 rows of 4096 (row r = b · 2048 + t holds x (b, t, ·)), transposes U,
  reads V and the transposed U at the narrower float format (the identity at the ideal values), and gives S and the
  bias a leading unit axis. The region walks the 32 row blocks of 256 rows: at block t it reads rows 256 t … 256 t + 255
  of x, the whole of V, S, Uᵀ and the bias, and writes the same rows of the output. Those row blocks tile the output,
  so the output array ends as one function of the arguments, row by row; the last host line reads it back at shape
  [4, 2048, 4096].
-/
import proofs.«151067_j88914412962285_1_alg».proof.Proof.Gen.KernelIdeal.Frame
import proofs.«151067_j88914412962285_1_alg».proof.Proof.BodyValue
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.LowRank.Kernel

open Cert.KernelIdeal Cert.KernelIdeal.Gen

variable (m : (ℓ : Loc nD τ sig) → Buf (Elt Ideal) ℓ) (ρ : Dev nD → PrngReg)

/-! ## The arguments, and the arrays the region finds -/

/-- The five arguments as launched. -/
abbrev xIn (c : Dev nD) : Vec Ideal S4x2048x4096 .f32 := m ((c : Thread nD τ).loc main_arg0)
abbrev uIn (c : Dev nD) : Vec Ideal S4096x1024 .f32 := m ((c : Thread nD τ).loc main_arg1)
abbrev sIn (c : Dev nD) : Vec Ideal S1024 .f32 := m ((c : Thread nD τ).loc main_arg2)
abbrev vIn (c : Dev nD) : Vec Ideal S4096x1024 .f32 := m ((c : Thread nD τ).loc main_arg3)
abbrev bIn (c : Dev nD) : Vec Ideal S4096 .f32 := m ((c : Thread nD τ).loc main_arg4)

/-- The five arrays the region's input windows stage, as the host lines before it leave them. -/
abbrev xRows (c : Dev nD) : Vec Ideal S8192x4096 .f32 := V m c main_v0
abbrev vMat (c : Dev nD) : Vec Ideal S4096x1024 .bf16 := V m c main_v2
abbrev sRow (c : Dev nD) : Vec Ideal S1x1024 .f32 := V m c main_v4
abbrev uT (c : Dev nD) : Vec Ideal S1024x4096 .bf16 := V m c main_v3
abbrev bRow (c : Dev nD) : Vec Ideal S1x4096 .f32 := V m c main_v5

/-- Row r = b · 2048 + t of the flattened x is x (b, t, ·). -/
theorem xRows_entry (c : Dev nD) (b : Fin 4) (t : Fin 2048) (o : Fin 4096) (r : Fin 8192) (hr : r.val = b.val * 2048 + t.val) :
    xRows m c (ix2 r o) = xIn m c (ix3 b t o) := by
  have e : xRows m c = shapeCast S8192x4096 (xIn m c) shapeCasts_S4x2048x4096_S8192x4096 := by
    show StableHlo.after hostOps0 (fun b => m (c, b)) (Proc.devRef .tc main_v0) = _
    after_results
    first | done | rfl
  rw [e]
  refine shapeCast_apply _ _ _ _ ?_
  rw [Shape.rowMajor_val_three, Shape.rowMajor_val_two]
  show (b.val * 2048 + t.val) * 4096 + o.val = r.val * 4096 + o.val
  rw [hr]

/-- V is staged as it is. -/
theorem vMat_entry (c : Dev nD) (o : Fin 4096) (k : Fin 1024) : vMat m c (ix2 o k) = vIn m c (ix2 o k) := by
  have e : vMat m c = truncf (F := Ideal) .bf16 (vIn m c) bitsLt_bf16_f32 := by
    show StableHlo.after hostOps0 (fun b => m (c, b)) (Proc.devRef .tc main_v2) = _
    after_results
    first | done | rfl
  rw [e, truncf_apply]

/-- The transposed U at (k, i) is U at (i, k). -/
theorem uT_entry (c : Dev nD) (k : Fin 1024) (i : Fin 4096) : uT m c (ix2 k i) = uIn m c (ix2 i k) := by
  have e : uT m c = truncf (F := Ideal) .bf16 (transpose S1024x4096 [1, 0] (uIn m c) transposes_S4096x1024_S1024x4096_1_0) bitsLt_bf16_f32 := by
    show StableHlo.after hostOps0 (fun b => m (c, b)) (Proc.devRef .tc main_v3) = _
    after_results
    first | done | rfl
  rw [e, truncf_apply]
  exact transpose_apply [1, 0] (uIn m c) transposes_S4096x1024_S1024x4096_1_0 (ix2 k i) (ix2 i k) (fun b => match b with
    | ⟨0, _⟩ => rfl
    | ⟨1, _⟩ => rfl)

/-- The singular values' one row at (0, k) is S at k. -/
theorem sRow_entry (c : Dev nD) (k : Fin 1024) : sRow m c (ix2 (0 : Fin 1) k) = sIn m c (ix1 k) := by
  have e : sRow m c = shapeCast S1x1024 (sIn m c) shapeCasts_S1024_S1x1024 := by
    show StableHlo.after hostOps0 (fun b => m (c, b)) (Proc.devRef .tc main_v4) = _
    after_results
    first | done | rfl
  rw [e]
  refine shapeCast_apply _ _ _ _ ?_
  rw [Shape.rowMajor_val_one, Shape.rowMajor_val_two]
  show k.val = 0 * 1024 + k.val
  omega

/-- The bias's one row at (0, i) is the bias at i. -/
theorem bRow_entry (c : Dev nD) (i : Fin 4096) : bRow m c (ix2 (0 : Fin 1) i) = bIn m c (ix1 i) := by
  have e : bRow m c = shapeCast S1x4096 (bIn m c) shapeCasts_S4096_S1x4096 := by
    show StableHlo.after hostOps0 (fun b => m (c, b)) (Proc.devRef .tc main_v5) = _
    after_results
    first | done | rfl
  rw [e]
  refine shapeCast_apply _ _ _ _ ?_
  rw [Shape.rowMajor_val_one, Shape.rowMajor_val_two]
  show i.val = 0 * 4096 + i.val
  omega

/-! ## The windows' blocks -/

theorem hz : (![0, 0] : Fin 2 → Nat) = fun _ => 0 := funext fun a => by fin_cases a <;> rfl

/-- The printed index maps over the grid: the windows of x and of the output walk the row blocks, the other four stay at
    block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input windows' blocks at point t, at their literal shapes. -/
abbrev xBlk (c : Dev nD) (t : Fin cfg0.N) : Vec Ideal S256x4096 .f32 := iblk m c 0 t
abbrev vBlk (c : Dev nD) (t : Fin cfg0.N) : Vec Ideal S4096x1024 .bf16 := iblk m c 1 t
abbrev sBlk (c : Dev nD) (t : Fin cfg0.N) : Vec Ideal S1x1024 .f32 := iblk m c 2 t
abbrev uBlk (c : Dev nD) (t : Fin cfg0.N) : Vec Ideal S1024x4096 .bf16 := iblk m c 3 t
abbrev bBlk (c : Dev nD) (t : Fin cfg0.N) : Vec Ideal S1x4096 .f32 := iblk m c 4 t

/-- Row p of x's block at point t is row 256 t + p of the flattened x. -/
theorem xBlk_entry (c : Dev nD) (t : Fin cfg0.N) (p : Fin 256) (o : Fin 4096) (r : Fin 8192) (hr : r.val = 256 * t.val + p.val) :
    xBlk m c t (ix2 p o) = xRows m c (ix2 r o) := by
  obtain ⟨e0, e1, -⟩ := index_facts t
  show V m c main_v0 (((cfg0.win 0).blk t).view.emb (ix2 p o)) = V m c main_v0 (ix2 r o)
  congr 1
  funext a
  apply Fin.ext
  match a with
  | ⟨0, _⟩ => show win0_0.index t (0 : Fin 2) * 256 + 1 * p.val = r.val; rw [e0, hr]; omega
  | ⟨1, _⟩ => show win0_0.index t (1 : Fin 2) * 4096 + 1 * o.val = o.val; rw [e1]; omega

/-- V's block at every point is the whole of V. -/
theorem vBlk_eq (c : Dev nD) (t : Fin cfg0.N) : vBlk m c t = vMat m c := by
  obtain ⟨-, -, e0, e1, -⟩ := index_facts t
  funext y
  show V m c main_v2 (((cfg0.win 1).blk t).view.emb y) = V m c main_v2 y
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 1024 + 1 * (y 1).val = (y 1).val; rw [e1]; omega

/-- The singular values' block at every point is their whole row. -/
theorem sBlk_eq (c : Dev nD) (t : Fin cfg0.N) : sBlk m c t = sRow m c := by
  obtain ⟨-, -, -, -, e0, e1, -⟩ := index_facts t
  funext y
  show V m c main_v4 (((cfg0.win 2).blk t).view.emb y) = V m c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The transposed U's block at every point is the whole of it. -/
theorem uBlk_eq (c : Dev nD) (t : Fin cfg0.N) : uBlk m c t = uT m c := by
  obtain ⟨-, -, -, -, -, -, e0, e1, -⟩ := index_facts t
  funext y
  show V m c main_v3 (((cfg0.win 3).blk t).view.emb y) = V m c main_v3 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

/-- The bias's block at every point is its whole row. -/
theorem bBlk_eq (c : Dev nD) (t : Fin cfg0.N) : bBlk m c t = bRow m c := by
  obtain ⟨-, -, -, -, -, -, -, -, e0, e1, -⟩ := index_facts t
  funext y
  show V m c main_v5 (((cfg0.win 4).blk t).view.emb y) = V m c main_v5 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-! ## The output array -/

/-- Row r, column i of the output: row r of the flattened x projected down, scaled, projected up, plus the bias. -/
abbrev rowsOut (c : Dev nD) : Vec Ideal S8192x4096 .f32 := fun j =>
  (∑ k : Fin 1024, ((∑ o : Fin 4096, xRows m c (ix2 (j 0) o) * vMat m c (ix2 o k)) * sRow m c (ix2 (0 : Fin 1) k)) * uT m c (ix2 k (j 1)))
    + bRow m c (ix2 (0 : Fin 1) (j 1))

/-- What point t writes back is block t of the output function. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero hz]
  simp only [View.ld_unit_zero (S := S256x4096) hz, View.ld_unit_zero (S := S4096x1024) hz, View.ld_unit_zero (S := S1x1024) hz,
    View.ld_unit_zero (S := S1024x4096) hz, View.ld_unit_zero (S := S1x4096) hz]
  obtain ⟨-, -, -, -, -, -, -, -, -, -, e0, e1⟩ := index_facts t
  have hN : cfg0.N = 32 := N_0
  funext j
  obtain ⟨p, q, rfl⟩ : ∃ (p : Fin 256) (q : Fin 4096), j = ix2 p q := ⟨j 0, j 1, eq_ix2 j⟩
  obtain ⟨r, hr⟩ : ∃ r : Fin 8192, r.val = 256 * t.val + p.val := ⟨⟨256 * t.val + p.val, by have := t.isLt; have := p.isLt; omega⟩, rfl⟩
  have he : ((cfg0.win 5).blk t).view.emb (ix2 p q) = ix2 r q := by
    funext a
    apply Fin.ext
    match a with
    | ⟨0, _⟩ => show win0_5.index t (0 : Fin 2) * 256 + 1 * p.val = r.val; rw [e0, hr]; omega
    | ⟨1, _⟩ => show win0_5.index t (1 : Fin 2) * 4096 + 1 * q.val = q.val; rw [e1]; omega
  show k0_pay1 (xBlk m c t) (vBlk m c t) (sBlk m c t) (uBlk m c t) (bBlk m c t) (ix2 p q) = rowsOut m c (((cfg0.win 5).blk t).view.emb (ix2 p q))
  rw [he, Cert.LowRank.Body.stored_entry, vBlk_eq, sBlk_eq, uBlk_eq, bBlk_eq]
  have hx : ∀ o : Fin 4096, xBlk m c t (ix2 p o) = xRows m c (ix2 r o) := fun o => xBlk_entry m c t p o r hr
  simp only [hx]

/-- An index of the output is in point t's block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v6).slice (win0_5.rect t)).set ↔ _
  rw [View.set_slice_whole, Rect.mem_set_unit]
  exact Iff.rfl

/-- The 32 row blocks tile the output: row r is in the block of point r / 256. -/
theorem cover (i : S8192x4096.Idx) : ∃ t : Fin cfg0.N, (cfg0.win 5).flush t = true ∧ i ∈ ((cfg0.win 5).blk t).view.set := by
  have hN : cfg0.N = 32 := N_0
  have hi0 : (i 0).val < 8192 := (i 0).isLt
  have hi1 : (i 1).val < 4096 := (i 1).isLt
  obtain ⟨t, ht⟩ : ∃ t : Fin cfg0.N, t.val = (i 0).val / 256 := ⟨⟨(i 0).val / 256, by omega⟩, rfl⟩
  obtain ⟨-, -, -, -, -, -, -, -, -, -, e0, e1⟩ := index_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 4096 ≤ (i 1).val ∧ (i 1).val < win0_5.index t (1 : Fin 2) * 4096 + 4096; rw [e1]; omega

/-- So the output array ends holding the output function. -/
theorem final (c : Dev nD) : (dats m 0 c).arrAt 5 cfg0.N = rowsOut m c :=
  (dats m 0 c).arrAt_eq_of_cover 5 (rowsOut m c) (fun t _ => flushed_eq m c t) (cover)

/-! ## The result -/

/-- The result: the output rows read back at shape [4, 2048, 4096]. -/
abbrev result (c : Dev nD) : Vec Ideal S4x2048x4096 .f32 :=
  shapeCast S4x2048x4096 (rowsOut m c) shapeCasts_S8192x4096_S4x2048x4096

/-- The host line after the region reads the output array, which ends at the output function, back at the result's shape. -/
theorem tail_eq (c : Dev nD) : Pipeline.afterTail₀ cfgs (dats m) 0 (V0 m) [hostOps1] c main_v7 = result m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = rowsOut m c :=
    (Pipeline.withArrays_arr spec0 launch0.win.arr_inj c _ _ 5).trans (final m c)
  rw [hw]
  rfl

/-- Every weakly fair execution of the kernel program ends with the result array at `result` and the arguments as launched. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result's entry (b, t, i), in the arguments: x's row (b, t) projected down through V, scaled by S, projected up
    through row i of U, plus bias (i). -/
theorem result_entry (c : Dev nD) (b : Fin 4) (t : Fin 2048) (i : Fin 4096) :
    result m c (ix3 b t i)
      = (∑ k : Fin 1024, ((∑ o : Fin 4096, xIn m c (ix3 b t o) * vIn m c (ix2 o k)) * sIn m c (ix1 k)) * uIn m c (ix2 i k))
        + bIn m c (ix1 i) := by
  obtain ⟨r, hr⟩ : ∃ r : Fin 8192, r.val = b.val * 2048 + t.val :=
    ⟨⟨b.val * 2048 + t.val, by have := b.isLt; have := t.isLt; omega⟩, rfl⟩
  have e : result m c (ix3 b t i) = rowsOut m c (ix2 r i) := by
    refine shapeCast_apply _ _ _ _ ?_
    rw [Shape.rowMajor_val_two, Shape.rowMajor_val_three]
    show r.val * 4096 + i.val = (b.val * 2048 + t.val) * 4096 + i.val
    rw [hr]
  rw [e]
  show (∑ k : Fin 1024, ((∑ o : Fin 4096, xRows m c (ix2 r o) * vMat m c (ix2 o k)) * sRow m c (ix2 (0 : Fin 1) k)) * uT m c (ix2 k i))
      + bRow m c (ix2 (0 : Fin 1) i) = _
  have hx : ∀ o : Fin 4096, xRows m c (ix2 r o) = xIn m c (ix3 b t o) := fun o => xRows_entry m c b t o r hr
  have hv : ∀ (o : Fin 4096) (k : Fin 1024), vMat m c (ix2 o k) = vIn m c (ix2 o k) := fun o k => vMat_entry m c o k
  have hs : ∀ k : Fin 1024, sRow m c (ix2 (0 : Fin 1) k) = sIn m c (ix1 k) := fun k => sRow_entry m c k
  have hu : ∀ k : Fin 1024, uT m c (ix2 k i) = uIn m c (ix2 i k) := fun k => uT_entry m c k i
  rw [bRow_entry m c i]
  refine congrArg (· + bIn m c (ix1 i)) (Finset.sum_congr rfl fun k _ => ?_)
  rw [hs k, hu k]
  refine congrArg (fun z => z * sIn m c (ix1 k) * uIn m c (ix2 i k)) (Finset.sum_congr rfl fun o _ => ?_)
  rw [hx o, hv o k]

end Cert.LowRank.Kernel

end
-- ==== Proof.Finite.lean ====
/-
  From the precondition to real entries.

  The precondition says of each of the five inputs that every entry's absolute value is below +infinity, and takes the
  conjunction. An extended real whose absolute value max x (-x) is below the top element is neither the top (x itself
  would reach it) nor the bottom (its negation would), so it is a real number. That is all the law joining the two
  arrangements asks of x, U, S and V; the bias is only added on both sides and is not needed.
-/
import proofs.«151067_j88914412962285_1_alg».proof.Pre_finite_inputs
import proofs.«151067_j88914412962285_1_alg».proof.Proof.Gen.Pre_finite_inputs
import Idealize.ShloMosaic.PureOps.Ideal.Laws
import Idealize.ShloMosaic.Lib.ValueIdx
import Idealize.ShloMosaic.Lib.ReduceAll

noncomputable section

open Idealize.ShloMosaic

namespace Cert.LowRank.Finite

/-- The word the precondition compares against denotes the top element. -/
theorem inf_word : Ideal.ofBits .f32 0x7F800000#32 = (⊤ : EReal) := by
  simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp only [Ideal.cmp, decide_eq_false hn] at h
    exact absurd h (by decide)
  have h1 : x ≠ ⊤ := ne_of_lt (lt_of_le_of_lt (le_max_left _ _) hlt)
  have h2 : x ≠ ⊥ := by
    rintro rfl
    exact absurd (lt_of_le_of_lt (le_max_right _ _) hlt) (by simp)
  exact ⟨x.toReal, (EReal.coe_toReal h1 h2).symm⟩

instance : Subsingleton Cert.Pre_finite_inputs.S_.Idx := ⟨fun a b => funext fun d => d.elim0⟩

open Cert.Pre_finite_inputs in
/-- Under the precondition every entry of x, U, S and V is a real number. -/
theorem entries_real [Cert.Pre_finite_inputs.Facts] (a0 : FVec Ideal S4x2048x4096 .f32) (a1 : FVec Ideal S4096x1024 .f32)
    (a2 : FVec Ideal S1024 .f32) (a3 : FVec Ideal S4096x1024 .f32) (a4 : FVec Ideal S4096 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1] at h0
  obtain ⟨h0123, -⟩ := IntOp.andi_eq_one.1 h0
  obtain ⟨h012, h3⟩ := IntOp.andi_eq_one.1 h0123
  obtain ⟨h01, h2⟩ := IntOp.andi_eq_one.1 h012
  obtain ⟨hx, hu⟩ := IntOp.andi_eq_one.1 h01
  exact ⟨fun i => real_of_abs_lt_inf _ (Host.reduce_andi_all _ _ _ _ _ hx i),
    fun i => real_of_abs_lt_inf _ (Host.reduce_andi_all _ _ _ _ _ hu i),
    fun i => real_of_abs_lt_inf _ (Host.reduce_andi_all _ _ _ _ _ h2 i),
    fun i => real_of_abs_lt_inf _ (Host.reduce_andi_all _ _ _ _ _ h3 i)⟩

end Cert.LowRank.Finite

end
-- ==== Proof.lean ====
/-
  A low-rank linear layer against its materialized form, over the extended reals.

  The kernel never forms the product matrix: for each block of 256 rows of x it computes (x · V), scales column k by
  S (k), multiplies by the transposed U and adds the bias, so its entry (b, t, i) is
      (∑ k, ((∑ o, x (b, t, o) · V (o, k)) · S (k)) · U (i, k)) + bias (i).
  The reference forms M (i, o) = ∑ k, (U (i, k) · S (k)) · V (o, k) and contracts x against it, so its entry is
      (∑ o, x (b, t, o) · M (i, o)) + bias (i).
  Both are the double sum of x (b, t, o) · V (o, k) · S (k) · U (i, k) plus the bias. Passing from either form to the double
  sum moves a factor across a sum, which is sound on the extended reals once every entry of x, U, S and V is a real
  number; the precondition (every input entry finite) gives exactly that. The changes of float format inside the kernel
  and before it are the identity at the ideal values, and a matrix product into the zero matrix is the plain sum.

  The frames of the two kernel programs are the generated ones; the reference's is its generated run with the result
  dropped. The idealization rewrote nothing, so there is nothing to preserve.
-/
import proofs.«151067_j88914412962285_1_alg».proof.Defs
import proofs.«151067_j88914412962285_1_alg».proof.Proof.Gen.Kernel
import proofs.«151067_j88914412962285_1_alg».proof.Proof.Gen.Kernel.Skeleton
import proofs.«151067_j88914412962285_1_alg».proof.Proof.Gen.Kernel.Launch
import proofs.«151067_j88914412962285_1_alg».proof.Proof.Gen.Kernel.Points
import proofs.«151067_j88914412962285_1_alg».proof.Proof.Gen.Kernel.Frame
import proofs.«151067_j88914412962285_1_alg».proof.Proof.Gen.KernelIdeal
import proofs.«151067_j88914412962285_1_alg».proof.Proof.Gen.KernelIdeal.Skeleton
import proofs.«151067_j88914412962285_1_alg».proof.Proof.Gen.KernelIdeal.Launch
import proofs.«151067_j88914412962285_1_alg».proof.Proof.Gen.KernelIdeal.Points
import proofs.«151067_j88914412962285_1_alg».proof.Proof.Gen.KernelIdeal.Frame
import proofs.«151067_j88914412962285_1_alg».proof.Proof.Gen.ReferenceIdeal
import proofs.«151067_j88914412962285_1_alg».proof.Proof.Gen.ReferenceIdeal.Run
import proofs.«151067_j88914412962285_1_alg».proof.Proof.Gen.ReferenceIdeal.Read
import proofs.«151067_j88914412962285_1_alg».proof.Proof.Gen.Pre_finite_inputs
import proofs.«151067_j88914412962285_1_alg».proof.Proof.LowRankLaw
import proofs.«151067_j88914412962285_1_alg».proof.Proof.RefValue
import proofs.«151067_j88914412962285_1_alg».proof.Proof.KernelValue
import proofs.«151067_j88914412962285_1_alg».proof.Proof.Finite
import Idealize.ShloMosaic.Adequacy
import Idealize.ShloMosaic.Init

noncomputable section

namespace Cert.Proof

open Idealize.ShloMosaic Idealize.SL.Sem Idealize.ShloMosaic.ValueIdx

/-- The kernel as printed terminates without a fault and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the two idealized programs end with equal results: entry by entry the
    kernel's down-scale-up form and the reference's product-matrix form are one real number plus the same bias. -/
theorem algebraic : Cert.algebraic_KernelIdeal_ReferenceIdeal := by
  intro m ρ m' ρ' hpre hagree
  refine ⟨fun c => Cert.LowRank.Kernel.result m c, Cert.LowRank.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v8_eq]
  obtain ⟨hx, hu, hs, hv⟩ := Cert.LowRank.Finite.entries_real _ _ _ _ _ (hpre c)
  funext j
  obtain ⟨b, t, i, rfl⟩ : ∃ (b : Fin 4) (t : Fin 2048) (i : Fin 4096), j = ix3 b t i := ⟨j 0, j 1, j 2, eq_ix3 j⟩
  show Cert.ReferenceIdeal.Read.val_main_v8 (F := Ideal) _ _ _ _ _ (ix3 b t i) = Cert.LowRank.Kernel.result m c (ix3 b t i)
  rw [Cert.LowRank.Ref.entry, Cert.LowRank.Kernel.result_entry]
  refine congrArg (· + Cert.LowRank.Kernel.bIn m c (ix1 i)) ?_
  exact (Cert.LowRank.two_arrangements
    (fun o : Fin 4096 => Cert.LowRank.Kernel.xIn m c (ix3 b t o))
    (fun (o : Fin 4096) (k : Fin 1024) => Cert.LowRank.Kernel.vIn m c (ix2 o k))
    (fun k : Fin 1024 => Cert.LowRank.Kernel.sIn m c (ix1 k))
    (fun k : Fin 1024 => Cert.LowRank.Kernel.uIn m c (ix2 i k))
    (fun o => hx _) (fun o k => hv _) (fun k => hs _) (fun k => hu _)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
